-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S16384x2048 .f32) (main_arg1 : FVec F S2048x2048 .f32) (main_arg2 : FVec F S2048 .f32) (main_arg3 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S16384x2048 : Shape := ⟨2, ![16384, 2048]⟩
abbrev S2048x2048 : Shape := ⟨2, ![2048, 2048]⟩
abbrev S2048 : Shape := ⟨1, ![2048]⟩
abbrev S256x2048 : Shape := ⟨2, ![256, 2048]⟩
abbrev S1x2048 : Shape := ⟨2, ![1, 2048]⟩
abbrev S512x2048 : Shape := ⟨2, ![512, 2048]⟩

abbrev nBuf : Space → Nat
  | .hbm => 7
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .bf16 = 32 ∨ (Rect.block (s := S2048x2048) S256x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S16384x2048.size a
  hwx1_3 : ∀ i : grid1.Coords, EltTy.bits .f32 = 32 ∨ (Rect.block (s := S16384x2048) S512x2048.size (cc1_transform_3 i) (hinb1_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S16384x2048, .f32⟩
  | .hbm, ⟨6, _⟩ => ⟨S1x2048, .f32⟩
  | .hbm, ⟨7, _⟩ => ⟨S16384x2048, .f32⟩
  | .hbm, ⟨8, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x2048_S16384x2048_1_1_0_0_n_n_wf : DotDims.WF S16384x2048 S2048x2048 S16384x2048 [1] [1] [0] [0] [] []

variable [Facts₀]

def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf

class Facts : Prop extends Facts₀ where

variable [Facts]
-- ==== Proof.Spec.lean ====
/-
  The masked linear layer over the extended reals, as one function of its four argument arrays:

      y (p, q) = (Σ_k x (p, k) * (w (q, k) * mk (q, k))) + b q

  for x of 16384 rows of 2048 features, the weight w and the mask mk both 2048 × 2048 (output row q, input feature k),
  and the bias b of 2048 entries. The layer is a composite of two stages, which is how both programs compute it:
  the masked weight `wm = w * mk`, entry by entry, and then the product of x with the TRANSPOSE of wm, row of x
  against row of wm, plus the bias row repeated down the rows.
-/
import Idealize.ShloMosaic.PureOps.Ideal
import Idealize.ShloMosaic.Lib.ValueIdx

noncomputable section

open scoped BigOperators

namespace Cert.MaskedLinear

open Idealize.ShloMosaic Idealize.ShloMosaic.ValueIdx

/-- The activations' and the result's shape. -/
abbrev Sx : Shape := ⟨2, ![16384, 2048]⟩
/-- The weight's and the mask's shape. -/
abbrev Sw : Shape := ⟨2, ![2048, 2048]⟩
/-- The bias as a vector, -/
abbrev Sb : Shape := ⟨1, ![2048]⟩
/-- and as a one-row matrix. -/
abbrev Sb2 : Shape := ⟨2, ![1, 2048]⟩

/-- The masked weight: the weight times the mask, entry by entry. -/
def maskedWeight (w mk : Sw.Idx → EReal) : Sw.Idx → EReal := fun i => w i * mk i

/-- Row p of x against row q of a 2048 × 2048 matrix, plus entry q of a one-row matrix. -/
def rowDotAt (x : Sx.Idx → EReal) (a : Sw.Idx → EReal) (b2 : Sb2.Idx → EReal) (p : Fin 16384) (q : Fin 2048) : EReal :=
  (∑ k : Fin 2048, x (ix2 p k) * a (ix2 q k)) + b2 (ix2 (0 : Fin 1) q)

/-- The same over the whole result array. -/
def rowDot (x : Sx.Idx → EReal) (a : Sw.Idx → EReal) (b2 : Sb2.Idx → EReal) : Sx.Idx → EReal :=
  fun i => rowDotAt x a b2 (i 0) (i 1)

theorem rowDot_ix2 (x : Sx.Idx → EReal) (a : Sw.Idx → EReal) (b2 : Sb2.Idx → EReal) (p : Fin 16384) (q : Fin 2048) :
    rowDot x a b2 (ix2 p q) = rowDotAt x a b2 p q := rfl

/-- The layer at row p and output feature q. -/
def layerAt (x : Sx.Idx → EReal) (w mk : Sw.Idx → EReal) (b : Sb.Idx → EReal) (p : Fin 16384) (q : Fin 2048) : EReal :=
  (∑ k : Fin 2048, x (ix2 p k) * (w (ix2 q k) * mk (ix2 q k))) + b (ix1 q)

/-- The layer: the whole result array. -/
def layer (x : Sx.Idx → EReal) (w mk : Sw.Idx → EReal) (b : Sb.Idx → EReal) : Sx.Idx → EReal :=
  fun i => layerAt x w mk b (i 0) (i 1)

theorem layer_ix2 (x : Sx.Idx → EReal) (w mk : Sw.Idx → EReal) (b : Sb.Idx → EReal) (p : Fin 16384) (q : Fin 2048) :
    layer x w mk b (ix2 p q) = layerAt x w mk b p q := rfl

/-- The two stages compose to the layer: the row product against the masked weight, plus a one-row matrix whose
    entry q is the bias's entry q. -/
theorem rowDot_maskedWeight (x : Sx.Idx → EReal) (w mk : Sw.Idx → EReal) (b : Sb.Idx → EReal) (b2 : Sb2.Idx → EReal)
    (hb : ∀ q : Fin 2048, b2 (ix2 (0 : Fin 1) q) = b (ix1 q)) :
    rowDot x (maskedWeight w mk) b2 = layer x w mk b := by
  funext i
  obtain ⟨p, q, rfl⟩ : ∃ (p : Fin 16384) (q : Fin 2048), i = ix2 p q := ⟨i 0, i 1, eq_ix2 i⟩
  rw [rowDot_ix2, layer_ix2]
  unfold rowDotAt layerAt maskedWeight
  rw [hb q]

end Cert.MaskedLinear

end
-- ==== Proof.MaskRegion.lean ====
/-
  The first region's output array. Grid point t of the eight multiplies rows 256 t … 256 t + 255 of the weight by the
  same rows of the mask, entry by entry (the change of float format that follows is the identity on the extended reals),
  and writes the product back to the same rows; the eight row bands tile the 2048 rows. So whatever the buffers hold when
  the region is entered, its output array ends at the masked weight of the two input arrays.
-/
import proofs.«119704_j30562987278743_1_alg».proof.Proof.Gen.KernelIdeal.Frame
import proofs.«119704_j30562987278743_1_alg».proof.Proof.Spec
import Idealize.ShloMosaic.Lib.Pipeline.Value
import Idealize.ShloMosaic.Lib.ValueIdx

set_option maxRecDepth 16384

noncomputable section

namespace Cert.KernelIdeal.MaskRegion

open Cert.KernelIdeal Cert.KernelIdeal.Gen Cert.MaskedLinear
open Idealize.ShloMosaic Idealize.ShloMosaic.TcCoe Idealize.SL.Sem Idealize.ShloMosaic.ValueIdx
open Idealize.ShloMosaic.Pipeline (Dat)

-- the buffers' contents when the region is entered
variable (V : (c : Dev nD) → (b : Ref sig .tc) → Buf (Elt Ideal) ((c : Thread nD τ).loc b))

/-- The weight and the mask as the region finds them, as arrays of extended reals. -/
abbrev warr (c : Dev nD) : Sw.Idx → EReal := V c main_arg1
abbrev marr (c : Dev nD) : Sw.Idx → EReal := V c main_arg3

theorem hz : (![0, 0] : Fin 2 → Nat) = fun _ => 0 := funext fun a => by fin_cases a <;> rfl

/-- The body's one stored value is the entrywise product of its two loaded blocks. -/
theorem product_block (x0 x1 : Vec Ideal S256x2048 .f32) (j : S256x2048.Idx) :
    k0_pay1 (F := Ideal) x0 x1 j = x0 j * x1 j := rfl

/-- All three windows sit on the same row band at every grid point, and span every column. -/
theorem bands : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every one of the eight row bands is some grid point's. -/
theorem band_onto : ∀ q0 : Fin 8, ∃ t : Fin cfg0.N, win0_2.index t = ![q0.val, 0] :=
  (by decide +kernel : ∀ q0 : Fin 8, ∃ t : Fin grid0.N, win0_2.index t = ![q0.val, 0])

/-- What grid point t writes back is its row band of the masked weight. -/
theorem written_band (c : Dev nD) (t : Fin cfg0.N) :
    (dat0 V c).flushed 2 t = ((cfg0.win 2).blk t).view.read (Elt Ideal) (maskedWeight (warr V c) (marr V c)) := by
  show (cfg0.win 2).cut (grid0.coords t) ((dat0 V c).after 2 t) = _
  rw [after0_2]
  unfold out0_2
  rw [View.canon_unit_zero hz]
  simp only [View.ld_unit_zero (S := S256x2048) hz]
  obtain ⟨e0, e1, e2, e3⟩ := bands t
  funext j
  show warr V c (((cfg0.win 0).blk t).view.emb j) * marr V c (((cfg0.win 1).blk t).view.emb j)
    = warr V c (((cfg0.win 2).blk t).view.emb j) * marr V c (((cfg0.win 2).blk t).view.emb j)
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 2048 + 1 * (j 1).val = win0_2.index t (1 : Fin 2) * 2048 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 2048 + 1 * (j 1).val = win0_2.index t (1 : Fin 2) * 2048 + 1 * (j 1).val; omega
  rw [h0, h1]

/-- An entry of the output array is in grid point t's band iff its row and column are in the band's ranges. -/
theorem mem_band (t : Fin cfg0.N) (i : S2048x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v0).slice (win0_2.rect t)).set ↔ _
  rw [View.set_slice_whole, Rect.mem_set_unit]
  exact Iff.rfl

/-- The output array after the region: the masked weight of the two input arrays as the region found them. -/
theorem masked (c : Dev nD) : (dat0 V c).arrAt 2 cfg0.N = maskedWeight (warr V c) (marr V c) :=
  (dat0 V c).arrAt_eq_of_cover 2 (maskedWeight (warr V c) (marr V c)) (fun t _ => written_band V c t) fun i => by
    have hi0 : (i 0).val < 2048 := (i 0).isLt
    have hi1 : (i 1).val < 2048 := (i 1).isLt
    obtain ⟨t, ht⟩ := band_onto ⟨(i 0).val / 256, by omega⟩
    have q0 : win0_2.index t (0 : Fin 2) = (i 0).val / 256 := congrFun ht 0
    have q1 : win0_2.index t (1 : Fin 2) = 0 := congrFun ht 1
    refine ⟨t, flush0_2 t, ?_⟩
    rw [mem_band]
    intro a
    match a with
    | ⟨0, _⟩ => show win0_2.index t (0 : Fin 2) * 256 ≤ (i 0).val ∧ (i 0).val < win0_2.index t (0 : Fin 2) * 256 + 256; omega
    | ⟨1, _⟩ => show win0_2.index t (1 : Fin 2) * 2048 ≤ (i 1).val ∧ (i 1).val < win0_2.index t (1 : Fin 2) * 2048 + 2048; omega

end Cert.KernelIdeal.MaskRegion

end
-- ==== Proof.MatmulRegion.lean ====
/-
  The second region's output array. Grid point t of the thirty-two takes rows 512 t … 512 t + 511 of x, the whole
  2048 × 2048 matrix and the whole one-row matrix; its body forms, for row p of the band and column q, the sum over k of
  x (p, k) times the matrix's entry (q, k) — the product contracts the SECOND axis of both operands, into a zero
  accumulator; the change of float format before it is the identity on the extended reals — and adds the one-row
  matrix's entry q. The bands tile the 16384 rows. So whatever the buffers hold when the region is entered, its output
  array ends at that row product of the three input arrays.
-/
import proofs.«119704_j30562987278743_1_alg».proof.Proof.Gen.KernelIdeal.Frame
import proofs.«119704_j30562987278743_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.MatmulRegion

open Cert.KernelIdeal Cert.KernelIdeal.Gen Cert.MaskedLinear
open Idealize.ShloMosaic Idealize.ShloMosaic.TcCoe Idealize.SL.Sem Idealize.ShloMosaic.ValueIdx
open Idealize.ShloMosaic.Pipeline (Dat)

/-! ## The body's product, read at a row and a column -/

/-- The left operand is read at the output's row, -/
theorem lhs_axis_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
/-- and at the contracted coordinate along its second axis. -/
theorem lhs_axis_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
/-- The right operand is read at the ROW the output's column names, -/
theorem rhs_axis_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
/-- and at the contracted coordinate along its second axis too. -/
theorem rhs_axis_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The body's product into the zero accumulator, at row p and column q: row p of the left operand against row q of the
    right one. -/
theorem product_at (l : FVec Ideal S512x2048 .bf16) (r : FVec Ideal S2048x2048 .bf16) (p : Fin 512) (q : Fin 2048) :
    matmul dot_S512x2048_S2048x2048_S512x2048_1_1_0_0_n_n none l r (constant (F := Ideal) S512x2048 .f32 0x00000000#32) (ix2 p q)
      = ∑ k : Fin 2048, l (ix2 p k) * r (ix2 q k) := by
  simp only [matmul]
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p q) ((contrEquiv1 dot_S512x2048_S2048x2048_S512x2048_1_1_0_0_n_n 2048 rfl rfl).symm k) = ix2 p k := funext fun a => Fin.ext (by
    match a with
    | ⟨0, _⟩ => exact lhs_axis_0 _ _
    | ⟨1, _⟩ => exact (lhs_axis_1 _ _).trans hk)
  have er : dot_S512x2048_S2048x2048_S512x2048_1_1_0_0_n_n.rhsIdx (ix2 p q) ((contrEquiv1 dot_S512x2048_S2048x2048_S512x2048_1_1_0_0_n_n 2048 rfl rfl).symm k) = ix2 q k := funext fun a => Fin.ext (by
    match a with
    | ⟨0, _⟩ => exact rhs_axis_0 _ _
    | ⟨1, _⟩ => exact (rhs_axis_1 _ _).trans hk)
  rw [el, er]

/-- The body's one stored value at row p and column q of its band: the row product plus the one-row block's entry q. -/
theorem stored_at (x0 : Vec Ideal S512x2048 .f32) (x1 : Vec Ideal S2048x2048 .bf16) (x2 : Vec Ideal S1x2048 .f32)
    (p : Fin 512) (q : Fin 2048) :
    k1_pay1 (F := Ideal) x0 x1 x2 (ix2 p q) = (∑ k : Fin 2048, x0 (ix2 p k) * x1 (ix2 q k)) + x2 (ix2 (0 : Fin 1) q) := by
  unfold k1_pay1
  rw [shapeCast_self, shapeCast_self]
  refine (addf_apply _ _ (ix2 p q)).trans ?_
  rw [product_at, broadcastTo_1b_ab_apply]
  rfl

/-! ## The region -/

-- the buffers' contents when the region is entered
variable (V : (c : Dev nD) → (b : Ref sig .tc) → Buf (Elt Ideal) ((c : Thread nD τ).loc b))

/-- The three input arrays as the region finds them, as arrays of extended reals. -/
abbrev xarr (c : Dev nD) : Sx.Idx → EReal := V c main_arg0
abbrev aarr (c : Dev nD) : Sw.Idx → EReal := V c main_v0
abbrev barr (c : Dev nD) : Sb2.Idx → EReal := V c main_v1

theorem hz : (![0, 0] : Fin 2 → Nat) = fun _ => 0 := funext fun a => by fin_cases a <;> rfl

/-- At every grid point the x window and the output window sit on the same row band and span every column; the matrix's
    and the one-row matrix's windows are the whole arrays. -/
theorem bands : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 31 :=
  (by decide +kernel : ∀ t : Fin grid1.N, _)

/-- Every one of the thirty-two row bands is some grid point's. -/
theorem band_onto : ∀ q0 : Fin 32, ∃ t : Fin cfg1.N, win1_3.index t = ![q0.val, 0] :=
  (by decide +kernel : ∀ q0 : Fin 32, ∃ t : Fin grid1.N, win1_3.index t = ![q0.val, 0])

/-- What grid point t writes back is its row band of the row product of the three input arrays. -/
theorem written_band (c : Dev nD) (t : Fin cfg1.N) :
    (dat1 V c).flushed 3 t = ((cfg1.win 3).blk t).view.read (Elt Ideal) (rowDot (xarr V c) (aarr V c) (barr V c)) := by
  show (cfg1.win 3).cut (grid1.coords t) ((dat1 V c).after 3 t) = _
  rw [after1_3]
  unfold out1_3
  rw [View.canon_unit_zero hz]
  simp only [View.ld_unit_zero (S := S512x2048) hz, View.ld_unit_zero (S := S2048x2048) hz, View.ld_unit_zero (S := S1x2048) hz]
  obtain ⟨e0, e1, e2, e3, e4, e5, e6, e7⟩ := bands t
  funext j
  obtain ⟨p, q, rfl⟩ : ∃ (p : Fin 512) (q : Fin 2048), j = ix2 p q := ⟨j 0, j 1, eq_ix2 j⟩
  have hrow : win1_3.index t (0 : Fin 2) * 512 + p.val < 16384 := by have := p.isLt; omega
  refine (stored_at (iblk1 V c 0 t) (iblk1 V c 1 t) (iblk1 V c 2 t) p q).trans ?_
  show (∑ k : Fin 2048, xarr V c (((cfg1.win 0).blk t).view.emb (ix2 p k)) * aarr V c (((cfg1.win 1).blk t).view.emb (ix2 q k)))
      + barr V c (((cfg1.win 2).blk t).view.emb (ix2 (0 : Fin 1) q))
    = rowDot (xarr V c) (aarr V c) (barr V c) (((cfg1.win 3).blk t).view.emb (ix2 p q))
  have hx : ∀ k : Fin 2048, ((cfg1.win 0).blk t).view.emb (ix2 p k) = ix2 (⟨win1_3.index t (0 : Fin 2) * 512 + p.val, hrow⟩ : Fin 16384) k := fun k => by
    funext a; apply Fin.ext
    match a with
    | ⟨0, _⟩ => show win1_0.index t (0 : Fin 2) * 512 + 1 * p.val = win1_3.index t (0 : Fin 2) * 512 + p.val; omega
    | ⟨1, _⟩ => show win1_0.index t (1 : Fin 2) * 2048 + 1 * k.val = k.val; omega
  have hw : ∀ k : Fin 2048, ((cfg1.win 1).blk t).view.emb (ix2 q k) = ix2 q k := fun k => by
    funext a; apply Fin.ext
    match a with
    | ⟨0, _⟩ => show win1_1.index t (0 : Fin 2) * 2048 + 1 * q.val = q.val; omega
    | ⟨1, _⟩ => show win1_1.index t (1 : Fin 2) * 2048 + 1 * k.val = k.val; omega
  have hb : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 2048 + 1 * q.val = q.val; omega
  have ho : ((cfg1.win 3).blk t).view.emb (ix2 p q) = ix2 (⟨win1_3.index t (0 : Fin 2) * 512 + p.val, hrow⟩ : Fin 16384) q := by
    funext a; apply Fin.ext
    match a with
    | ⟨0, _⟩ => show win1_3.index t (0 : Fin 2) * 512 + 1 * p.val = win1_3.index t (0 : Fin 2) * 512 + p.val; omega
    | ⟨1, _⟩ => show win1_3.index t (1 : Fin 2) * 2048 + 1 * q.val = q.val; omega
  rw [ho, rowDot_ix2, hb]
  unfold rowDotAt
  refine congrArg (· + _) (Finset.sum_congr rfl fun k _ => ?_)
  rw [hx k, hw k]

/-- An entry of the output array is in grid point t's band iff its row and column are in the band's ranges. -/
theorem mem_band (t : Fin cfg1.N) (i : S16384x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v2).slice (win1_3.rect t)).set ↔ _
  rw [View.set_slice_whole, Rect.mem_set_unit]
  exact Iff.rfl

/-- The output array after the region: the row product of the three input arrays as the region found them. -/
theorem row_product (c : Dev nD) : (dat1 V c).arrAt 3 cfg1.N = rowDot (xarr V c) (aarr V c) (barr V c) :=
  (dat1 V c).arrAt_eq_of_cover 3 (rowDot (xarr V c) (aarr V c) (barr V c)) (fun t _ => written_band V c t) fun i => by
    have hi0 : (i 0).val < 16384 := (i 0).isLt
    have hi1 : (i 1).val < 2048 := (i 1).isLt
    obtain ⟨t, ht⟩ := band_onto ⟨(i 0).val / 512, by omega⟩
    have q0 : win1_3.index t (0 : Fin 2) = (i 0).val / 512 := congrFun ht 0
    have q1 : win1_3.index t (1 : Fin 2) = 0 := congrFun ht 1
    refine ⟨t, flush1_3 t, ?_⟩
    rw [mem_band]
    intro a
    match a with
    | ⟨0, _⟩ => show win1_3.index t (0 : Fin 2) * 512 ≤ (i 0).val ∧ (i 0).val < win1_3.index t (0 : Fin 2) * 512 + 512; omega
    | ⟨1, _⟩ => show win1_3.index t (1 : Fin 2) * 2048 ≤ (i 1).val ∧ (i 1).val < win1_3.index t (1 : Fin 2) * 2048 + 2048; omega

end Cert.KernelIdeal.MatmulRegion

end
-- ==== Proof.KernelValue.lean ====
/-
  The whole program's result. The first region leaves the masked weight of the weight and the mask in its output
  array; the one host operation between the regions recasts the bias as a one-row matrix; neither touches x. So the
  second region is entered with x as launched, the masked weight, and the bias as one row, and leaves in the result
  array the row product of those three — which is the masked linear layer of the four arguments.
-/
import proofs.«119704_j30562987278743_1_alg».proof.Proof.KernelIdealRun
import proofs.«119704_j30562987278743_1_alg».proof.Proof.MaskRegion
import proofs.«119704_j30562987278743_1_alg».proof.Proof.MatmulRegion
import Idealize.ShloMosaic.Lib.StableHlo.Run
import Idealize.ShloMosaic.Lib.ValueLayout

noncomputable section

namespace Cert.KernelIdeal.WholeValue

open Cert.KernelIdeal Cert.KernelIdeal.Gen Cert.MaskedLinear
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The four arguments as launched, as arrays of extended reals. -/
abbrev xin (c : Dev nD) : Sx.Idx → EReal := m ((c : Thread nD τ).loc main_arg0)
abbrev win (c : Dev nD) : Sw.Idx → EReal := m ((c : Thread nD τ).loc main_arg1)
abbrev bin (c : Dev nD) : Sb.Idx → EReal := m ((c : Thread nD τ).loc main_arg2)
abbrev mkin (c : Dev nD) : Sw.Idx → EReal := m ((c : Thread nD τ).loc main_arg3)

/-- The second region finds x as launched: no region and no host operation writes it. -/
theorem entry_x (c : Dev nD) : MatmulRegion.xarr (V2 m ρ) c = xin m c := by
  show StableHlo.after hostOps1 (W1 m ρ c) (Proc.devRef .tc main_arg0) = _
  after_results
  exact W1_of_ne m ρ c main_arg0 (by decide)

/-- It finds the first region's output array, the masked weight of the weight and the mask as launched. -/
theorem entry_a (c : Dev nD) : MatmulRegion.aarr (V2 m ρ) c = maskedWeight (win m c) (mkin m c) := by
  show StableHlo.after hostOps1 (W1 m ρ c) (Proc.devRef .tc main_v0) = _
  after_results
  exact (W1_arr m ρ c 2).trans (MaskRegion.masked (V0 m ρ) c)

/-- And it finds the bias recast as one row: entry (0, q) is the bias's entry q. -/
theorem entry_b (c : Dev nD) (q : Fin 2048) : MatmulRegion.barr (V2 m ρ) c (ix2 (0 : Fin 1) q) = bin m c (ix1 q) := by
  have h : MatmulRegion.barr (V2 m ρ) c = shapeCast S1x2048 (bin m c) shapeCasts_S2048_S1x2048 := by
    show StableHlo.after hostOps1 (W1 m ρ c) (Proc.devRef .tc main_v1) = _
    after_results
    rw [W1_of_ne m ρ c main_arg2 (by decide)]
    rfl
  rw [h]
  exact shapeCast_a_1a_apply (bin m c) shapeCasts_S2048_S1x2048 0 q

/-- The result array after the last segment is the layer of the four arguments. -/
theorem result_is_layer (c : Dev nD) :
    W3 m ρ c (Proc.devRef .tc main_v2) = layer (xin m c) (win m c) (mkin m c) (bin m c) := by
  refine (W3_arr m ρ c 3).trans ?_
  rw [MatmulRegion.row_product (V2 m ρ) c, entry_x, entry_a]
  exact rowDot_maskedWeight _ _ _ _ _ (entry_b m ρ c)

/-- The run, read: the result array at the layer of the arguments, the arguments unchanged. -/
theorem run : θ_run defs (onTc (τ := τ) (main (F := Ideal))) ⟨m, fun _ => 0, ρ⟩ fun r => ∀ c : Dev nD,
      r.2.mem ((c.tc : Thread nD τ).loc main_v2) = layer (xin m c) (win m c) (mkin m c) (bin m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (result_is_layer m ρ c), (h c).2⟩)
    (RunNamed.run_named m ρ)

end Cert.KernelIdeal.WholeValue

end
-- ==== Proof.RefIsLayer.lean ====
/-
  The reference computes the masked linear layer: read one operation at a time, its result at row p and output
  feature q is the sum over k of x (p, k) times the product w (q, k) * mk (q, k) — the host's product contracts the
  second axis of both operands — plus the bias's entry q, which the two broadcasts carry to every row.
-/
import proofs.«119704_j30562987278743_1_alg».proof.Proof.Gen.ReferenceIdeal.Read
import proofs.«119704_j30562987278743_1_alg».proof.Proof.Spec

noncomputable section

open scoped BigOperators

namespace Cert.ReferenceIdeal.RefValue

open Cert.ReferenceIdeal Cert.ReferenceIdeal.Read Cert.MaskedLinear
open Idealize.ShloMosaic Idealize.ShloMosaic.ValueIdx

/-- The left operand of the product is read at (p, k), -/
theorem lidx_ix2 (p : Fin 16384) (q k : Fin 2048) : lidx_main_v1 (ix2 p q) k = ix2 p k :=
  funext fun a => Fin.ext (by match a with | ⟨0, _⟩ => rfl | ⟨1, _⟩ => rfl)

/-- the right one at (q, k): row q of the masked weight. -/
theorem ridx_ix2 (p : Fin 16384) (q k : Fin 2048) : ridx_main_v1 (ix2 p q) k = ix2 q k :=
  funext fun a => Fin.ext (by match a with | ⟨0, _⟩ => rfl | ⟨1, _⟩ => rfl)

/-- The two broadcasts read the bias at the result's column. -/
theorem bias_idx (p : Fin 16384) (q : Fin 2048) : idx_main_v2 (idx_main_v3 (ix2 p q)) = ix1 q :=
  funext fun a => Fin.ext (by match a with | ⟨0, _⟩ => rfl)

/-- The reference's result is the layer of its arguments (x, weight, bias, mask in the program's order). -/
theorem reference_is_layer (x0 : (⟨S16384x2048, .f32⟩ : BufTy).Contents (Elt Ideal)) (x1 : (⟨S2048x2048, .f32⟩ : BufTy).Contents (Elt Ideal))
    (x2 : (⟨S2048, .f32⟩ : BufTy).Contents (Elt Ideal)) (x3 : (⟨S2048x2048, .f32⟩ : BufTy).Contents (Elt Ideal)) :
    val_main_v4 (F := Ideal) x0 x1 x2 x3 = layer x0 x1 x3 x2 := by
  funext i
  obtain ⟨p, q, rfl⟩ : ∃ (p : Fin 16384) (q : Fin 2048), i = ix2 p q := ⟨i 0, i 1, eq_ix2 i⟩
  rw [val_main_v4_apply, val_main_v1_apply, val_main_v3_apply, val_main_v2_apply, layer_ix2]
  simp only [lidx_ix2, ridx_ix2, bias_idx, val_main_v0_apply, Ideal.addf_def, Ideal.mulf_def]
  rfl

end Cert.ReferenceIdeal.RefValue

end
-- ==== Proof.lean ====
/-
  The masked linear layer y = x · (w ∘ mk)ᵀ + b, computed by two kernel regions against a host reference.

  Over the extended reals both programs compute, at row p and output feature q,
      (Σ_k x (p, k) * (w (q, k) * mk (q, k))) + b q.
  The kernel program does it in two regions: the first writes the masked weight w ∘ mk, row band by row band; a host
  operation recasts the bias as one row; the second multiplies each band of 512 rows of x by the transpose of the masked
  weight (contracting the second axis of both) into a zero accumulator and adds the bias row. The reference multiplies
  w by mk, contracts the same two axes in one host product, and adds the bias broadcast down the rows. Changes of float
  format are the identity on the extended reals, so the two results are the same sums of the same products, term by
  term and in the same order: no law of arithmetic beyond that is used, and the inputs' finiteness is never opened.
  The three frames are the generated ones (the reference's is its run with the result dropped); nothing was rewritten by
  the idealization, so there is nothing for it to preserve.
-/
import proofs.«119704_j30562987278743_1_alg».proof.Defs
import proofs.«119704_j30562987278743_1_alg».proof.Proof.Gen.Kernel
import proofs.«119704_j30562987278743_1_alg».proof.Proof.Gen.Kernel.Skeleton
import proofs.«119704_j30562987278743_1_alg».proof.Proof.Gen.Kernel.Launch
import proofs.«119704_j30562987278743_1_alg».proof.Proof.Gen.Kernel.Points
import proofs.«119704_j30562987278743_1_alg».proof.Proof.Gen.Kernel.Frame
import proofs.«119704_j30562987278743_1_alg».proof.Proof.Gen.KernelIdeal
import proofs.«119704_j30562987278743_1_alg».proof.Proof.Gen.KernelIdeal.Skeleton
import proofs.«119704_j30562987278743_1_alg».proof.Proof.Gen.KernelIdeal.Launch
import proofs.«119704_j30562987278743_1_alg».proof.Proof.Gen.KernelIdeal.Points
import proofs.«119704_j30562987278743_1_alg».proof.Proof.Gen.KernelIdeal.Frame
import proofs.«119704_j30562987278743_1_alg».proof.Proof.Gen.ReferenceIdeal
import proofs.«119704_j30562987278743_1_alg».proof.Proof.Gen.Pre_finite_inputs
import proofs.«119704_j30562987278743_1_alg».proof.Proof.Gen.ReferenceIdeal.Run
import proofs.«119704_j30562987278743_1_alg».proof.Proof.Gen.ReferenceIdeal.Read
import proofs.«119704_j30562987278743_1_alg».proof.Proof.KernelValue
import proofs.«119704_j30562987278743_1_alg».proof.Proof.RefIsLayer
import Idealize.ShloMosaic.Adequacy
import Idealize.ShloMosaic.Init

noncomputable section

namespace Cert.Proof

open Idealize.ShloMosaic Idealize.SL.Sem Cert.MaskedLinear

/-- The word-level kernel program runs and leaves its arguments as launched. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- And the reference: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the layer of those arguments in their result
    arrays. -/
theorem algebraic : Cert.algebraic_KernelIdeal_ReferenceIdeal := by
  intro m ρ m' ρ' _ hagree
  refine ⟨fun c => layer (Cert.KernelIdeal.WholeValue.xin m c) (Cert.KernelIdeal.WholeValue.win m c)
      (Cert.KernelIdeal.WholeValue.mkin m c) (Cert.KernelIdeal.WholeValue.bin m c),
    Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v4_eq _ _ _ _).trans (Cert.ReferenceIdeal.RefValue.reference_is_layer _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
